-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x512 : Shape := ⟨3, ![1024, 64, 512]⟩
abbrev S1024x64 : Shape := ⟨2, ![1024, 64]⟩
abbrev S512x512 : Shape := ⟨2, ![512, 512]⟩
abbrev S_ : Shape := ⟨0, ![]⟩

class Facts : Prop where
  bcast_S_S1024x64x512 : S_.BroadcastsInDim S1024x64x512 (![] : Fin 0 → Fin S1024x64x512.rank)
  reducesTo_S1024x64x512_S_d0_1_2 : S1024x64x512.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S1024x64x512 .f32) (main_arg1 : FVec F S1024x64 .f32) (main_arg2 : FVec F S512x512 .f32) : IVec S_ 1 :=
  let main_v0 : FVec F S1024x64x512 .f32 := Host.absf main_arg0
  let main_cst : FVec F S_ .f32 := constant S_ .f32 0x7F800000#32
  let main_v1 : FVec F S1024x64x512 .f32 := broadcastInDim S1024x64x512 ![] bcast_S_S1024x64x512 main_cst
  let main_v2 : IVec S1024x64x512 1 := cmpf .olt main_v0 main_v1
  let main_c : IVec S_ 1 := constantI S_ 1 1#1
  let main_v3 : IVec S_ 1 := (fun x v => Host.reduce IntOp.andi x v reducesTo_S1024x64x512_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S1024x64x512 : Shape := ⟨3, ![1024, 64, 512]⟩
abbrev S1024x64 : Shape := ⟨2, ![1024, 64]⟩
abbrev S512x512 : Shape := ⟨2, ![512, 512]⟩
abbrev S16x64x512 : Shape := ⟨3, ![16, 64, 512]⟩
abbrev S16x64 : Shape := ⟨2, ![16, 64]⟩
abbrev S1024x512 : Shape := ⟨2, ![1024, 512]⟩
abbrev S16x64x64 : Shape := ⟨3, ![16, 64, 64]⟩
abbrev S16x1x64 : Shape := ⟨3, ![16, 1, 64]⟩

abbrev nBuf : Space → Nat
  | .hbm => 4
  | .vmem => 7
  | .smem => 0
  | _ => 0

abbrev bufTy : (tb : Table) → Fin (tcTables nBuf tb) → BufTy
  | .hbm, ⟨0, _⟩ => ⟨S1024x64x512, .f32⟩
  | .hbm, ⟨1, _⟩ => ⟨S1024x64, .f32⟩
  | .hbm, ⟨2, _⟩ => ⟨S512x512, .f32⟩
  | .hbm, ⟨3, _⟩ => ⟨S1024x64x512, .f32⟩
  | .local _ .vmem, ⟨0, _⟩ => ⟨S16x64x512, .f32⟩
  | .local _ .vmem, ⟨1, _⟩ => ⟨S16x64x512, .f32⟩
  | .local _ .vmem, ⟨2, _⟩ => ⟨S16x64, .f32⟩
  | .local _ .vmem, ⟨3, _⟩ => ⟨S16x64, .f32⟩
  | .local _ .vmem, ⟨4, _⟩ => ⟨S512x512, .f32⟩
  | .local _ .vmem, ⟨5, _⟩ => ⟨S16x64x512, .f32⟩
  | .local _ .vmem, ⟨6, _⟩ => ⟨S16x64x512, .f32⟩
  | _, _ => ⟨S1024x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S16x64x512_S16x64x512_0_0_0 : ∀ a, (![0, 0, 0] : Fin 3 → Nat) a + S16x64x512.size a ≤ S16x64x512.size a
  h_S16x64x512 : 0 < S16x64x512.numel
  bitsLt_bf16_f32 : FTy.bits .bf16 < FTy.bits .f32
  shapeCasts_S16x64x512_S1024x512 : S16x64x512.ShapeCasts S1024x512
  inb_S512x512_S512x512_0_0 : ∀ a, (![0, 0] : Fin 2 → Nat) a + S512x512.size a ≤ S512x512.size a
  h_S512x512 : 0 < S512x512.numel
  shapeCasts_S1024x512_S16x64x512 : S1024x512.ShapeCasts S16x64x512
  inb_S16x64_S16x64_0_0 : ∀ a, (![0, 0] : Fin 2 → Nat) a + S16x64.size a ≤ S16x64.size a
  h_S16x64 : 0 < S16x64.numel
  shapeCasts_S16x64_S16x1x64 : S16x64.ShapeCasts S16x1x64
  broadcasts_S16x1x64_S16x64x64 : S16x1x64.Broadcasts S16x64x64
  dot_S1024x512_S512x512_S1024x512_1_0_0_1_n_n_wf : DotDims.WF S1024x512 S512x512 S1024x512 [1] [0] [0] [1] [] []
  dot_S16x64x512_S16x64x512_S16x64x64_2_2_1_1_0_0_wf : DotDims.WF S16x64x512 S16x64x512 S16x64x64 [2] [2] [1] [1] [0] [0]
  dot_S16x64x64_S16x64x512_S16x64x512_2_1_1_2_0_0_wf : DotDims.WF S16x64x64 S16x64x512 S16x64x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x512.size a ≤ S1024x64x512.size a
  hwx0_0 : ∀ i : grid0.Coords, EltTy.bits .f32 = 32 ∨ (Rect.block (s := S1024x64x512) S16x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S1024x64.size a
  hwx0_1 : ∀ i : grid0.Coords, EltTy.bits .f32 = 32 ∨ (Rect.block (s := S1024x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64x512.size a ≤ S1024x64x512.size a
  hwx0_3 : ∀ i : grid0.Coords, EltTy.bits .f32 = 32 ∨ (Rect.block (s := S1024x64x512) S16x64x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S16x64x512_S16x64x512_S16x64x64_2_2_1_1_0_0 : DotDims S16x64x512 S16x64x512 S16x64x64 where
  lhsContracting := [2]
  rhsContracting := [2]
  lhsNonContracting := [1]
  rhsNonContracting := [1]
  lhsBatch := [0]
  rhsBatch := [0]
  wf := dot_S16x64x512_S16x64x512_S16x64x64_2_2_1_1_0_0_wf
def dot_S16x64x64_S16x64x512_S16x64x512_2_1_1_2_0_0 : DotDims S16x64x64 S16x64x512 S16x64x512 where
  lhsContracting := [2]
  rhsContracting := [1]
  lhsNonContracting := [1]
  rhsNonContracting := [2]
  lhsBatch := [0]
  rhsBatch := [0]
  wf := dot_S16x64x64_S16x64x512_S16x64x512_2_1_1_2_0_0_wf

abbrev win0_0 : Pipeline.Window sig grid0 :=
  Pipeline.Window.ofSpec (Memref.whole main_arg0) S16x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x64x512 : Shape := ⟨3, ![1024, 64, 512]⟩
abbrev S1024x64 : Shape := ⟨2, ![1024, 64]⟩
abbrev S512x512 : Shape := ⟨2, ![512, 512]⟩
abbrev S1024x64x64 : Shape := ⟨3, ![1024, 64, 64]⟩
abbrev S1024x1x64 : Shape := ⟨3, ![1024, 1, 64]⟩

abbrev nBuf : Space → Nat
  | .hbm => 9
  | .vmem => 0
  | .smem => 0
  | _ => 0

abbrev bufTy : (tb : Table) → Fin (tcTables nBuf tb) → BufTy
  | .hbm, ⟨0, _⟩ => ⟨S1024x64x512, .f32⟩
  | .hbm, ⟨1, _⟩ => ⟨S1024x64, .f32⟩
  | .hbm, ⟨2, _⟩ => ⟨S512x512, .f32⟩
  | .hbm, ⟨3, _⟩ => ⟨S1024x64x512, .f32⟩
  | .hbm, ⟨4, _⟩ => ⟨S1024x64x64, .f32⟩
  | .hbm, ⟨5, _⟩ => ⟨S1024x1x64, .f32⟩
  | .hbm, ⟨6, _⟩ => ⟨S1024x64x64, .f32⟩
  | .hbm, ⟨7, _⟩ => ⟨S1024x64x64, .f32⟩
  | .hbm, ⟨8, _⟩ => ⟨S1024x64x512, .f32⟩
  | _, _ => ⟨S1024x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S1024x64_S1024x1x64_0_2 : S1024x64.BroadcastsInDim S1024x1x64 (![0, 2] : Fin 2 → Fin S1024x1x64.rank)
  bcast_S1024x1x64_S1024x64x64_0_1_2 : S1024x1x64.BroadcastsInDim S1024x64x64 (![0, 1, 2] : Fin 3 → Fin S1024x64x64.rank)
  dot_S1024x64x512_S512x512_S1024x64x512_2_0_01_1_n_n_wf : DotDims.WF S1024x64x512 S512x512 S1024x64x512 [2] [0] [0, 1] [1] [] []
  dot_S1024x64x512_S1024x64x512_S1024x64x64_2_2_1_1_0_0_wf : DotDims.WF S1024x64x512 S1024x64x512 S1024x64x64 [2] [2] [1] [1] [0] [0]
  dot_S1024x64x64_S1024x64x512_S1024x64x512_2_1_1_2_0_0_wf : DotDims.WF S1024x64x64 S1024x64x512 S1024x64x512 [2] [1] [1] [2] [0] [0]

variable [Facts₀]

def dot_S1024x64x512_S512x512_S1024x64x512_2_0_01_1_n_n : DotDims S1024x64x512 S512x512 S1024x64x512 where
  lhsContracting := [2]
  rhsContracting := [0]
  lhsNonContracting := [0, 1]
  rhsNonContracting := [1]
  lhsBatch := []
  rhsBatch := []
  wf := dot_S1024x64x512_S512x512_S1024x64x512_2_0_01_1_n_n_wf
def dot_S1024x64x512_S1024x64x512_S1024x64x64_2_2_1_1_0_0 : DotDims S1024x64x512 S1024x64x512 S1024x64x64 where
  lhsContracting := [2]
  rhsContracting := [2]
  lhsNonContracting := [1]
  rhsNonContracting := [1]
  lhsBatch := [0]
  rhsBatch := [0]
  wf := dot_S1024x64x512_S1024x64x512_S1024x64x64_2_2_1_1_0_0_wf
def dot_S1024x64x64_S1024x64x512_S1024x64x512_2_1_1_2_0_0 : DotDims S1024x64x64 S1024x64x512 S1024x64x512 where
  lhsContracting := [2]
  rhsContracting := [1]
  lhsNonContracting := [1]
  rhsNonContracting := [2]
  lhsBatch := [0]
  rhsBatch := [0]
  wf := dot_S1024x64x64_S1024x64x512_S1024x64x512_2_1_1_2_0_0_wf

class Facts : Prop extends Facts₀ where

variable [Facts]
-- ==== Proof.KernelDots.lean ====
/-
  The kernel's three block products, each read at an entry as a plain sum.

  The body multiplies three times, each time into a zero accumulator:
    * the flattened block of tokens (`1024 = 16 · 64` rows of width 512) by the weight matrix: an ordinary matrix
      product, the left operand's columns contracted with the right operand's rows;
    * the projected block with itself, sequence by sequence (the first axis of both operands and of the result is
      the sequence), contracting the projected width of both: entry `(p, j, f)` pairs token `j` with token `f`;
    * the masked scores with the projected block, sequence by sequence, contracting the key position: the left
      operand's last axis with the right operand's middle one.
  For each product the operand indices at a result index and a contraction position are computed axis by axis from
  the product's dimension numbers, and the one-axis contraction index set is re-indexed by its coordinate.
-/
import proofs.«144591_j11879879543805_1_alg».proof.Proof.Gen.KernelIdeal
import Idealize.ShloMosaic.Lib.ValueIdx
import Idealize.ShloMosaic.PureOps.Ideal.Laws

noncomputable section

open scoped BigOperators

namespace Cert.KernelDots

open Cert.KernelIdeal Cert.KernelIdeal.Gen Idealize.ShloMosaic Idealize.ShloMosaic.ValueIdx

/-- The projection's dimension numbers. -/
abbrev dProj : DotDims S1024x512 S512x512 S1024x512 := dot_S1024x512_S512x512_S1024x512_1_0_0_1_n_n
/-- The scores' dimension numbers. -/
abbrev dScore : DotDims S16x64x512 S16x64x512 S16x64x64 := dot_S16x64x512_S16x64x512_S16x64x64_2_2_1_1_0_0
/-- The dimension numbers of the product of the masked scores with the projected block. -/
abbrev dOut : DotDims S16x64x64 S16x64x512 S16x64x512 := dot_S16x64x64_S16x64x512_S16x64x512_2_1_1_2_0_0

/-! ## The projection: rows by columns -/

theorem lhsProj_0 (i : S1024x512.Idx) (q : dProj.contr.Idx) : (dProj.lhsIdx i q 0).val = (i 0).val := by
  unfold DotDims.lhsIdx
  rw [dif_neg (show ¬(0 : Fin S1024x512.rank) ∈ dProj.lhsBatch by decide), dif_pos (show (0 : Fin S1024x512.rank) ∈ dProj.lhsNonContracting by decide)]
  rfl
theorem lhsProj_1 (i : S1024x512.Idx) (q : dProj.contr.Idx) : (dProj.lhsIdx i q 1).val = (q ⟨0, by decide⟩).val :=
  dProj.lhsIdx_val_of_single rfl i q
theorem rhsProj_0 (i : S1024x512.Idx) (q : dProj.contr.Idx) : (dProj.rhsIdx i q 0).val = (q ⟨0, by decide⟩).val :=
  dProj.rhsIdx_val_of_single rfl i q
theorem rhsProj_1 (i : S1024x512.Idx) (q : dProj.contr.Idx) : (dProj.rhsIdx i q 1).val = (i 1).val := by
  unfold DotDims.rhsIdx
  rw [dif_neg (show ¬(1 : Fin S512x512.rank) ∈ dProj.rhsBatch by decide), dif_pos (show (1 : Fin S512x512.rank) ∈ dProj.rhsNonContracting by decide)]
  rfl

/-- Row `a` of the left operand against column `e` of the right one. -/
theorem proj_apply (l : FVec Ideal S1024x512 .bf16) (r : FVec Ideal S512x512 .bf16) (a : Fin 1024) (e : Fin 512) :
    matmul dProj none l r (constant S1024x512 .f32 0x00000000#32) (ix2 a e) = ∑ k : Fin 512, l (ix2 a k) * r (ix2 k e) := by
  simp only [matmul]
  rw [Ideal.matmul_constant_zero_apply, ← Equiv.sum_comp (contrEquiv1 dProj 512 rfl rfl).symm]
  refine Finset.sum_congr rfl fun k _ => ?_
  have hk := contrEquiv1_symm_val dProj 512 rfl rfl k
  have el : dProj.lhsIdx (ix2 a e) ((contrEquiv1 dProj 512 rfl rfl).symm k) = ix2 a k := funext fun x => Fin.ext (by
    match x with
    | ⟨0, _⟩ => exact lhsProj_0 _ _
    | ⟨1, _⟩ => exact (lhsProj_1 _ _).trans hk)
  have er : dProj.rhsIdx (ix2 a e) ((contrEquiv1 dProj 512 rfl rfl).symm k) = ix2 k e := funext fun x => Fin.ext (by
    match x with
    | ⟨0, _⟩ => exact (rhsProj_0 _ _).trans hk
    | ⟨1, _⟩ => exact rhsProj_1 _ _)
  rw [el, er]

/-! ## The scores: token against token, sequence by sequence -/

theorem lhsScore_0 (i : S16x64x64.Idx) (q : dScore.contr.Idx) : (dScore.lhsIdx i q 0).val = (i 0).val := by
  unfold DotDims.lhsIdx
  rw [dif_pos (show (0 : Fin S16x64x512.rank) ∈ dScore.lhsBatch by decide)]
  rfl
theorem lhsScore_1 (i : S16x64x64.Idx) (q : dScore.contr.Idx) : (dScore.lhsIdx i q 1).val = (i 1).val := by
  unfold DotDims.lhsIdx
  rw [dif_neg (show ¬(1 : Fin S16x64x512.rank) ∈ dScore.lhsBatch by decide), dif_pos (show (1 : Fin S16x64x512.rank) ∈ dScore.lhsNonContracting by decide)]
  rfl
theorem lhsScore_2 (i : S16x64x64.Idx) (q : dScore.contr.Idx) : (dScore.lhsIdx i q 2).val = (q ⟨0, by decide⟩).val :=
  dScore.lhsIdx_val_of_single rfl i q
theorem rhsScore_0 (i : S16x64x64.Idx) (q : dScore.contr.Idx) : (dScore.rhsIdx i q 0).val = (i 0).val := by
  unfold DotDims.rhsIdx
  rw [dif_pos (show (0 : Fin S16x64x512.rank) ∈ dScore.rhsBatch by decide)]
  rfl
theorem rhsScore_1 (i : S16x64x64.Idx) (q : dScore.contr.Idx) : (dScore.rhsIdx i q 1).val = (i 2).val := by
  unfold DotDims.rhsIdx
  rw [dif_neg (show ¬(1 : Fin S16x64x512.rank) ∈ dScore.rhsBatch by decide), dif_pos (show (1 : Fin S16x64x512.rank) ∈ dScore.rhsNonContracting by decide)]
  rfl
theorem rhsScore_2 (i : S16x64x64.Idx) (q : dScore.contr.Idx) : (dScore.rhsIdx i q 2).val = (q ⟨0, by decide⟩).val :=
  dScore.rhsIdx_val_of_single rfl i q

/-- Token `j` of sequence `p` of the left operand against token `f` of sequence `p` of the right one. -/
theorem score_apply (l r : FVec Ideal S16x64x512 .bf16) (p : Fin 16) (j f : Fin 64) :
    matmul dScore none l r (constant S16x64x64 .f32 0x00000000#32) (ix3 p j f) = ∑ k : Fin 512, l (ix3 p j k) * r (ix3 p f k) := by
  simp only [matmul]
  rw [Ideal.matmul_constant_zero_apply, ← Equiv.sum_comp (contrEquiv1 dScore 512 rfl rfl).symm]
  refine Finset.sum_congr rfl fun k _ => ?_
  have hk := contrEquiv1_symm_val dScore 512 rfl rfl k
  have el : dScore.lhsIdx (ix3 p j f) ((contrEquiv1 dScore 512 rfl rfl).symm k) = ix3 p j k := funext fun x => Fin.ext (by
    match x with
    | ⟨0, _⟩ => exact lhsScore_0 _ _
    | ⟨1, _⟩ => exact lhsScore_1 _ _
    | ⟨2, _⟩ => exact (lhsScore_2 _ _).trans hk)
  have er : dScore.rhsIdx (ix3 p j f) ((contrEquiv1 dScore 512 rfl rfl).symm k) = ix3 p f k := funext fun x => Fin.ext (by
    match x with
    | ⟨0, _⟩ => exact rhsScore_0 _ _
    | ⟨1, _⟩ => exact rhsScore_1 _ _
    | ⟨2, _⟩ => exact (rhsScore_2 _ _).trans hk)
  rw [el, er]

/-! ## The result: masked scores by projected tokens, sequence by sequence -/

theorem lhsOut_0 (i : S16x64x512.Idx) (q : dOut.contr.Idx) : (dOut.lhsIdx i q 0).val = (i 0).val := by
  unfold DotDims.lhsIdx
  rw [dif_pos (show (0 : Fin S16x64x64.rank) ∈ dOut.lhsBatch by decide)]
  rfl
theorem lhsOut_1 (i : S16x64x512.Idx) (q : dOut.contr.Idx) : (dOut.lhsIdx i q 1).val = (i 1).val := by
  unfold DotDims.lhsIdx
  rw [dif_neg (show ¬(1 : Fin S16x64x64.rank) ∈ dOut.lhsBatch by decide), dif_pos (show (1 : Fin S16x64x64.rank) ∈ dOut.lhsNonContracting by decide)]
  rfl
theorem lhsOut_2 (i : S16x64x512.Idx) (q : dOut.contr.Idx) : (dOut.lhsIdx i q 2).val = (q ⟨0, by decide⟩).val :=
  dOut.lhsIdx_val_of_single rfl i q
theorem rhsOut_0 (i : S16x64x512.Idx) (q : dOut.contr.Idx) : (dOut.rhsIdx i q 0).val = (i 0).val := by
  unfold DotDims.rhsIdx
  rw [dif_pos (show (0 : Fin S16x64x512.rank) ∈ dOut.rhsBatch by decide)]
  rfl
theorem rhsOut_1 (i : S16x64x512.Idx) (q : dOut.contr.Idx) : (dOut.rhsIdx i q 1).val = (q ⟨0, by decide⟩).val :=
  dOut.rhsIdx_val_of_single rfl i q
theorem rhsOut_2 (i : S16x64x512.Idx) (q : dOut.contr.Idx) : (dOut.rhsIdx i q 2).val = (i 2).val := by
  unfold DotDims.rhsIdx
  rw [dif_neg (show ¬(2 : Fin S16x64x512.rank) ∈ dOut.rhsBatch by decide), dif_pos (show (2 : Fin S16x64x512.rank) ∈ dOut.rhsNonContracting by decide)]
  rfl

/-- Row `j` of sequence `p` of the left operand against column `d` of sequence `p` of the right one. -/
theorem out_apply (l : FVec Ideal S16x64x64 .bf16) (r : FVec Ideal S16x64x512 .bf16) (p : Fin 16) (j : Fin 64) (d : Fin 512) :
    matmul dOut none l r (constant S16x64x512 .f32 0x00000000#32) (ix3 p j d) = ∑ f : Fin 64, l (ix3 p j f) * r (ix3 p f d) := by
  simp only [matmul]
  rw [Ideal.matmul_constant_zero_apply, ← Equiv.sum_comp (contrEquiv1 dOut 64 rfl rfl).symm]
  refine Finset.sum_congr rfl fun k _ => ?_
  have hk := contrEquiv1_symm_val dOut 64 rfl rfl k
  have el : dOut.lhsIdx (ix3 p j d) ((contrEquiv1 dOut 64 rfl rfl).symm k) = ix3 p j k := funext fun x => Fin.ext (by
    match x with
    | ⟨0, _⟩ => exact lhsOut_0 _ _
    | ⟨1, _⟩ => exact lhsOut_1 _ _
    | ⟨2, _⟩ => exact (lhsOut_2 _ _).trans hk)
  have er : dOut.rhsIdx (ix3 p j d) ((contrEquiv1 dOut 64 rfl rfl).symm k) = ix3 p k d := funext fun x => Fin.ext (by
    match x with
    | ⟨0, _⟩ => exact rhsOut_0 _ _
    | ⟨1, _⟩ => exact (rhsOut_1 _ _).trans hk
    | ⟨2, _⟩ => exact rhsOut_2 _ _)
  rw [el, er]

end Cert.KernelDots

end
-- ==== Proof.Layouts.lean ====
/-
  The body's re-layings, read at an index.

  A block of 16 sequences of 64 tokens is flattened to 1024 rows for the projection and cut back into 16 sequences
  afterwards: row `p · 64 + s` of the flat matrix is token `s` of sequence `p`, both ways, because a shape cast keeps
  the row-major position. The mask block `[16, 64]` gets a unit query axis and is repeated along it: at
  `(p, j, f)` it is the mask at `(p, f)`, whatever the query position `j`.
-/
import Idealize.ShloMosaic.Lib.Pipeline.Value
import Idealize.ShloMosaic.Lib.ValueIdx

noncomputable section

namespace Cert.Layouts

open Idealize.ShloMosaic Idealize.ShloMosaic.ValueIdx

variable {α : Type}

/-- The flat row of token `s` of sequence `p`. -/
def row (p : Fin 16) (s : Fin 64) : Fin 1024 := ⟨p.val * 64 + s.val, by omega⟩

/-- The flattened block at `(p · 64 + s, k)` is the block at `(p, s, k)`. -/
theorem flatten_apply (x : (⟨3, ![16, 64, 512]⟩ : Shape).Idx → α)
    (h : (⟨3, ![16, 64, 512]⟩ : Shape).ShapeCasts ⟨2, ![1024, 512]⟩) (p : Fin 16) (s : Fin 64) (k : Fin 512) :
    shapeCast ⟨2, ![1024, 512]⟩ x h (ix2 (row p s) k) = x (ix3 p s k) :=
  shapeCast_apply x h _ _ (by
    rw [Shape.rowMajor_val_three, Shape.rowMajor_val_two]
    rfl)

/-- The flat matrix cut back into sequences: at `(p, s, e)` it is the matrix at `(p · 64 + s, e)`. -/
theorem unflatten_apply (x : (⟨2, ![1024, 512]⟩ : Shape).Idx → α)
    (h : (⟨2, ![1024, 512]⟩ : Shape).ShapeCasts ⟨3, ![16, 64, 512]⟩) (p : Fin 16) (s : Fin 64) (e : Fin 512) :
    shapeCast ⟨3, ![16, 64, 512]⟩ x h (ix3 p s e) = x (ix2 (row p s) e) :=
  shapeCast_apply x h _ _ (by
    rw [Shape.rowMajor_val_three, Shape.rowMajor_val_two]
    rfl)

/-- The mask with a unit query axis, repeated along it: at `(p, j, f)` the mask at `(p, f)`. -/
theorem maskRows_apply (x : (⟨2, ![16, 64]⟩ : Shape).Idx → α)
    (h1 : (⟨2, ![16, 64]⟩ : Shape).ShapeCasts ⟨3, ![16, 1, 64]⟩)
    (h2 : (⟨3, ![16, 1, 64]⟩ : Shape).Broadcasts ⟨3, ![16, 64, 64]⟩) (p : Fin 16) (j f : Fin 64) :
    broadcastTo ⟨3, ![16, 64, 64]⟩ (shapeCast ⟨3, ![16, 1, 64]⟩ x h1) h2 (ix3 p j f) = x (ix2 p f) := by
  have hb : broadcastTo ⟨3, ![16, 64, 64]⟩ (shapeCast ⟨3, ![16, 1, 64]⟩ x h1) h2 (ix3 p j f)
      = shapeCast ⟨3, ![16, 1, 64]⟩ x h1 (ix3 p (0 : Fin 1) f) :=
    broadcastTo_apply _ h2 _ _ fun a => match a with
      | ⟨0, _⟩ => by show p.val = if (16 : Nat) = 1 then 0 else p.val; rw [if_neg (by decide)]
      | ⟨1, _⟩ => by show 0 = if (1 : Nat) = 1 then 0 else j.val; rw [if_pos rfl]
      | ⟨2, _⟩ => by show f.val = if (64 : Nat) = 1 then 0 else f.val; rw [if_neg (by decide)]
  rw [hb]
  exact shapeCast_apply x h1 _ _ (by
    rw [Shape.rowMajor_val_three, Shape.rowMajor_val_two]
    show p.val * 64 + f.val = (p.val * 1 + 0) * 64 + f.val
    omega)

end Cert.Layouts

end
-- ==== Proof.Spec.lean ====
/-
  The function both programs compute, over the extended reals.

  A batch of `B` sequences of `S` tokens of width `D` is projected by one weight matrix `w` (`D × E`); the projected
  token serves as query, key and value at once:
    q[b, s, e]       = ∑ k, x[b, s, k] · w[k, e]
    score[b, j, f]   = ∑ e, q[b, j, e] · q[b, f, e]
    out[b, j, d]     = ∑ f, (score[b, j, f] · mask[b, f]) · q[b, f, d]
  The mask weighs the key position `f`. There is no softmax and no scaling. Every sum is a finite sum of extended
  reals, every product the extended reals' product: no law beyond reading the operations at an index is used, so
  nothing here asks the inputs to be finite.
-/
import Idealize.ShloMosaic.PureOps.Ideal
import Idealize.ShloMosaic.Lib.ValueIdx

noncomputable section

open scoped BigOperators

namespace Cert.Spec

open Idealize.ShloMosaic Idealize.ShloMosaic.ValueIdx

variable {B S D E : Nat}

/-- The projected token: entry `e` of token `s` of sequence `b` times the weight matrix. -/
def proj (x : (⟨3, ![B, S, D]⟩ : Shape).Idx → EReal) (w : (⟨2, ![D, E]⟩ : Shape).Idx → EReal)
    (b : Fin B) (s : Fin S) (e : Fin E) : EReal :=
  ∑ k : Fin D, x (ix3 b s k) * w (ix2 k e)

/-- The raw score of query position `j` against key position `f`: the inner product of their projected tokens. -/
def score (x : (⟨3, ![B, S, D]⟩ : Shape).Idx → EReal) (w : (⟨2, ![D, E]⟩ : Shape).Idx → EReal)
    (b : Fin B) (j f : Fin S) : EReal :=
  ∑ e : Fin E, proj x w b j e * proj x w b f e

/-- The result at sequence `b`, query position `j`, column `d`: the masked scores times the projected tokens. -/
def attn (x : (⟨3, ![B, S, D]⟩ : Shape).Idx → EReal) (mk : (⟨2, ![B, S]⟩ : Shape).Idx → EReal)
    (w : (⟨2, ![D, E]⟩ : Shape).Idx → EReal) (b : Fin B) (j : Fin S) (d : Fin E) : EReal :=
  ∑ f : Fin S, (score x w b j f * mk (ix2 b f)) * proj x w b f d

/-- The result as an array. -/
def attnArr (x : (⟨3, ![B, S, D]⟩ : Shape).Idx → EReal) (mk : (⟨2, ![B, S]⟩ : Shape).Idx → EReal)
    (w : (⟨2, ![D, E]⟩ : Shape).Idx → EReal) : (⟨3, ![B, S, E]⟩ : Shape).Idx → EReal :=
  fun i => attn x mk w (i 0) (i 1) (i 2)

/-- The result at sequence `b` depends on sequence `b` of the input, row `b` of the mask and the weight matrix only:
    two batches that agree there (at possibly different positions `b`, `b'` of differently long batches), with weight
    matrices that agree, give the same values. This is what lets a block of sequences be computed from that block
    alone. -/
theorem attn_congr {B' : Nat} (x : (⟨3, ![B, S, D]⟩ : Shape).Idx → EReal) (mk : (⟨2, ![B, S]⟩ : Shape).Idx → EReal)
    (w : (⟨2, ![D, E]⟩ : Shape).Idx → EReal)
    (x' : (⟨3, ![B', S, D]⟩ : Shape).Idx → EReal) (mk' : (⟨2, ![B', S]⟩ : Shape).Idx → EReal)
    (w' : (⟨2, ![D, E]⟩ : Shape).Idx → EReal) (b : Fin B) (b' : Fin B')
    (hx : ∀ (s : Fin S) (k : Fin D), x (ix3 b s k) = x' (ix3 b' s k))
    (hm : ∀ f : Fin S, mk (ix2 b f) = mk' (ix2 b' f))
    (hw : ∀ (k : Fin D) (e : Fin E), w (ix2 k e) = w' (ix2 k e)) (j : Fin S) (d : Fin E) :
    attn x mk w b j d = attn x' mk' w' b' j d := by
  have hp : ∀ (s : Fin S) (e : Fin E), proj x w b s e = proj x' w' b' s e := fun s e =>
    Finset.sum_congr rfl fun k _ => by rw [hx s k, hw k e]
  have hs : ∀ j f : Fin S, score x w b j f = score x' w' b' j f := fun j f =>
    Finset.sum_congr rfl fun e _ => by rw [hp j e, hp f e]
  exact Finset.sum_congr rfl fun f _ => by rw [hs j f, hm f, hp f d]

end Cert.Spec

end
-- ==== Proof.Payload.lean ====
/-
  The body's one stored value, read at an entry, is the specification of the block.

  From the block `xb` of 16 sequences, the weight matrix `w` and the block `mb` of the mask the body computes, with
  every change of float format the identity on the extended reals:
    * the projected block: flatten, multiply by `w`, cut back; at `(p, s, e)` this is `∑ k, xb[p, s, k] · w[k, e]`,
      the flat row `p · 64 + s` being token `s` of sequence `p` on the way in and on the way out;
    * the scores `∑ e, q[p, j, e] · q[p, f, e]`, times the mask at `(p, f)`;
    * their product with the projected block over the key position `f`.
  That is `Spec.attn` at batch length 16.
-/
import proofs.«144591_j11879879543805_1_alg».proof.Proof.Gen.KernelIdeal.Skeleton
import proofs.«144591_j11879879543805_1_alg».proof.Proof.KernelDots
import proofs.«144591_j11879879543805_1_alg».proof.Proof.Layouts
import proofs.«144591_j11879879543805_1_alg».proof.Proof.Spec

noncomputable section

open scoped BigOperators

namespace Cert.Payload

open Cert.KernelIdeal Cert.KernelIdeal.Gen Idealize.ShloMosaic Idealize.ShloMosaic.ValueIdx
open Cert.Spec Cert.KernelDots Cert.Layouts

/-- The projected block at `(p, s, e)`. -/
theorem head_apply (xb : FVec Ideal S16x64x512 .f32) (w : FVec Ideal S512x512 .f32)
    (hb : FTy.bits .bf16 < FTy.bits .f32) (hc1 : S16x64x512.ShapeCasts S1024x512) (hc2 : S1024x512.ShapeCasts S16x64x512)
    (p : Fin 16) (s : Fin 64) (e : Fin 512) :
    (truncf .bf16 (shapeCast S16x64x512 (matmul dProj none (shapeCast S1024x512 (truncf .bf16 xb hb) hc1) (truncf .bf16 w hb)
      (constant S1024x512 .f32 0x00000000#32)) hc2) hb : FVec Ideal S16x64x512 .bf16) (ix3 p s e) = proj xb w p s e := by
  rw [truncf_apply, unflatten_apply, proj_apply]
  refine Finset.sum_congr rfl fun k _ => ?_
  rw [flatten_apply, truncf_apply, truncf_apply]

/-- The masked scores times the projected block, for any projected block `q`. -/
theorem tail_apply (q : FVec Ideal S16x64x512 .bf16) (mb : FVec Ideal S16x64 .f32)
    (hb : FTy.bits .bf16 < FTy.bits .f32) (h1 : S16x64.ShapeCasts S16x1x64) (h2 : S16x1x64.Broadcasts S16x64x64)
    (p : Fin 16) (j : Fin 64) (d : Fin 512) :
    matmul dOut none (truncf .bf16 (mulf (matmul dScore none q q (constant S16x64x64 .f32 0x00000000#32))
        (broadcastTo S16x64x64 (shapeCast S16x1x64 mb h1) h2)) hb) q (constant S16x64x512 .f32 0x00000000#32) (ix3 p j d)
      = ∑ f : Fin 64, ((∑ e : Fin 512, q (ix3 p j e) * q (ix3 p f e)) * mb (ix2 p f)) * q (ix3 p f d) := by
  rw [out_apply]
  refine Finset.sum_congr rfl fun f _ => ?_
  rw [truncf_apply, mulf_apply, score_apply, maskRows_apply]

/-- THE STORED VALUE at `(p, j, d)` is the specification of the block. -/
theorem pay_apply (xb : Vec Ideal S16x64x512 .f32) (w : Vec Ideal S512x512 .f32) (mb : Vec Ideal S16x64 .f32)
    (p : Fin 16) (j : Fin 64) (d : Fin 512) :
    k0_pay1 (F := Ideal) xb w mb (ix3 p j d) = attn xb mb w p j d := by
  unfold k0_pay1
  refine (tail_apply _ mb _ _ _ p j d).trans ?_
  unfold attn score
  refine Finset.sum_congr rfl fun f _ => ?_
  rw [head_apply]
  refine congrArg (fun t => (t * mb (ix2 p f)) * proj xb w p f d) (Finset.sum_congr rfl fun e _ => ?_)
  rw [head_apply, head_apply]

/-- Member `p` of the `t`-th block of 16 sequences is sequence `t · 16 + p` of the batch. -/
def seqOf (t : Fin 64) (p : Fin 16) : Fin 1024 := ⟨t.val * 16 + p.val, by omega⟩

/-- THE STORED VALUE OF BLOCK `t`: when the loaded blocks are the `t`-th block of the batch, the `t`-th block of the mask
    and the weight matrix, the stored value at `(p, j, d)` is the whole batch's result at sequence `t · 16 + p`: a
    sequence's result reads that sequence only. -/
theorem block_value (t : Fin 64) (xb : Vec Ideal S16x64x512 .f32) (mb : Vec Ideal S16x64 .f32) (wb : Vec Ideal S512x512 .f32)
    (X : (⟨3, ![1024, 64, 512]⟩ : Shape).Idx → EReal) (M : (⟨2, ![1024, 64]⟩ : Shape).Idx → EReal)
    (W : (⟨2, ![512, 512]⟩ : Shape).Idx → EReal)
    (hx : ∀ (p : Fin 16) (s : Fin 64) (k : Fin 512), xb (ix3 p s k) = X (ix3 (seqOf t p) s k))
    (hm : ∀ (p : Fin 16) (f : Fin 64), mb (ix2 p f) = M (ix2 (seqOf t p) f))
    (hw : ∀ (k e : Fin 512), wb (ix2 k e) = W (ix2 k e)) (p : Fin 16) (j : Fin 64) (d : Fin 512) :
    k0_pay1 (F := Ideal) xb wb mb (ix3 p j d) = attnArr X M W (ix3 (seqOf t p) j d) :=
  (pay_apply xb wb mb p j d).trans (attn_congr xb mb wb X M W p (seqOf t p) (hx p) (hm p) hw j d)

end Cert.Payload

end
-- ==== Proof.Blocks.lean ====
/-
  From blocks to the array: after the run the result array is the specification of the argument arrays.

  The grid has 64 points; point `t` reads sequences `16 t … 16 t + 15` of the input, the same rows of the mask and the
  whole weight matrix, and writes back sequences `16 t … 16 t + 15` of the result. What it writes is the body's stored
  value of those blocks, which is the whole batch's result on those sequences (a sequence's result reads that sequence
  only). The 64 blocks cover the result array: sequence `b` lies in block `b / 16`.
-/
import proofs.«144591_j11879879543805_1_alg».proof.Proof.Gen.KernelIdeal.Value
import proofs.«144591_j11879879543805_1_alg».proof.Proof.Payload

noncomputable section

namespace Cert.KernelValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Spec Cert.Payload

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the input, the mask and the result move along the batch axis with the
    point; the weight matrix stays. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The result array the specification gives for the argument arrays as the region finds them. -/
abbrev G (c : Dev nD) : S1024x64x512.Idx → EReal :=
  attnArr (V m c main_arg0) (V m c main_arg1) (V m c main_arg2)

/-- WHAT POINT `t` WRITES BACK is block `t` of the specification's array. -/
theorem flushed_eq (c : Dev nD) (t : Fin cfg0.N) :
    (dats m 0 c).flushed 3 t = ((cfg0.win 3).blk t).view.read (Elt Ideal) (G m c) := by
  rw [flushed3]
  unfold out0_3
  rw [View.canon_unit_zero hz3]
  simp only [View.ld_unit_zero (S := S16x64x512) hz3, View.ld_unit_zero (S := S512x512) hz2, View.ld_unit_zero (S := S16x64) hz2]
  obtain ⟨e00, e01, e02, e10, e11, e20, e21, e30, e31, e32⟩ := idx_facts t
  have ht : t.val < 64 := lt_of_lt_of_eq t.isLt N_0
  refine funext fun (y : S16x64x512.Idx) => ?_
  obtain ⟨p, j, d, rfl⟩ : ∃ (p : Fin 16) (j : Fin 64) (d : Fin 512), y = ix3 p j d := ⟨y 0, y 1, y 2, eq_ix3 y⟩
  show k0_pay1 (F := Ideal) (iblk m c 0 t) (iblk m c 2 t) (iblk m c 1 t) (ix3 p j d)
    = G m c (((cfg0.win 3).blk t).view.emb (ix3 p j d))
  have he : ((cfg0.win 3).blk t).view.emb (ix3 p j d) = ix3 (seqOf ⟨t.val, ht⟩ p) j d := by
    funext a; apply Fin.ext
    match a with
    | ⟨0, _⟩ => show win0_3.index t (0 : Fin 3) * 16 + 1 * p.val = t.val * 16 + p.val; omega
    | ⟨1, _⟩ => show win0_3.index t (1 : Fin 3) * 64 + 1 * j.val = j.val; omega
    | ⟨2, _⟩ => show win0_3.index t (2 : Fin 3) * 512 + 1 * d.val = d.val; omega
  rw [he]
  refine block_value ⟨t.val, ht⟩ _ _ _ _ _ _ ?_ ?_ ?_ p j d
  · intro p s k
    show V m c main_arg0 (((cfg0.win 0).blk t).view.emb (ix3 p s k)) = V m c main_arg0 (ix3 (seqOf ⟨t.val, ht⟩ p) s k)
    refine congrArg _ (funext fun a => Fin.ext ?_)
    match a with
    | ⟨0, _⟩ => show win0_0.index t (0 : Fin 3) * 16 + 1 * p.val = t.val * 16 + p.val; omega
    | ⟨1, _⟩ => show win0_0.index t (1 : Fin 3) * 64 + 1 * s.val = s.val; omega
    | ⟨2, _⟩ => show win0_0.index t (2 : Fin 3) * 512 + 1 * k.val = k.val; omega
  · intro p f
    show V m c main_arg1 (((cfg0.win 1).blk t).view.emb (ix2 p f)) = V m c main_arg1 (ix2 (seqOf ⟨t.val, ht⟩ p) f)
    refine congrArg _ (funext fun a => Fin.ext ?_)
    match a with
    | ⟨0, _⟩ => show win0_1.index t (0 : Fin 2) * 16 + 1 * p.val = t.val * 16 + p.val; omega
    | ⟨1, _⟩ => show win0_1.index t (1 : Fin 2) * 64 + 1 * f.val = f.val; omega
  · intro k e
    show V m c main_arg2 (((cfg0.win 2).blk t).view.emb (ix2 k e)) = V m c main_arg2 (ix2 k e)
    refine congrArg _ (funext fun a => Fin.ext ?_)
    match a with
    | ⟨0, _⟩ => show win0_2.index t (0 : Fin 2) * 512 + 1 * k.val = k.val; omega
    | ⟨1, _⟩ => show win0_2.index t (1 : Fin 2) * 512 + 1 * e.val = e.val; omega

/-- An index of the array is in point `t`'s block iff each coordinate is in the block's range on its axis. -/
theorem mem_blk (t : Fin cfg0.N) (i : S1024x64x512.Idx) :
    i ∈ ((cfg0.win 3).blk t).view.set ↔ ∀ a : Fin 3, win0_3.index t a * S16x64x512.size a ≤ (i a).val ∧ (i a).val < win0_3.index t a * S16x64x512.size a + S16x64x512.size a := by
  show i ∈ ((View.whole main_v0).slice (win0_3.rect t)).set ↔ _
  rw [View.set_slice_whole, Rect.mem_set_unit]
  exact Iff.rfl

/-- Every index of the result array is in some point's block: sequence `b` in block `b / 16`. -/
theorem cover (i : S1024x64x512.Idx) : ∃ t : Fin cfg0.N, (cfg0.win 3).flush t = true ∧ i ∈ ((cfg0.win 3).blk t).view.set := by
  have hi0 : (i 0).val < 1024 := (i 0).isLt
  have hi1 : (i 1).val < 64 := (i 1).isLt
  have hi2 : (i 2).val < 512 := (i 2).isLt
  have hN : cfg0.N = 64 := N_0
  let t : Fin cfg0.N := ⟨(i 0).val / 16, by rw [hN]; omega⟩
  obtain ⟨-, -, -, -, -, -, -, e30, e31, e32⟩ := idx_facts t
  have e30' : win0_3.index t (0 : Fin 3) = (i 0).val / 16 := e30
  refine ⟨t, flush0_3 t, ?_⟩
  rw [mem_blk]
  intro a
  match a with
  | ⟨0, _⟩ => show win0_3.index t (0 : Fin 3) * 16 ≤ (i 0).val ∧ (i 0).val < win0_3.index t (0 : Fin 3) * 16 + 16; omega
  | ⟨1, _⟩ => show win0_3.index t (1 : Fin 3) * 64 ≤ (i 1).val ∧ (i 1).val < win0_3.index t (1 : Fin 3) * 64 + 64; omega
  | ⟨2, _⟩ => show win0_3.index t (2 : Fin 3) * 512 ≤ (i 2).val ∧ (i 2).val < win0_3.index t (2 : Fin 3) * 512 + 512; omega

/-- THE RESULT ARRAY after the run is the specification's. -/
theorem final (c : Dev nD) : (dats m 0 c).arrAt 3 cfg0.N = G m c :=
  (dats m 0 c).arrAt_eq_of_cover 3 (G m c) (fun t _ => flushed_eq m c t) cover

/-- The run, read: the result array at the specification of the argument arrays as launched, the arguments
    unchanged. -/
theorem run : θ_run defs (onTc (τ := τ) (main (F := Ideal))) ⟨m, fun _ => 0, ρ⟩ fun r => ∀ c : Dev nD,
      r.2.mem ((c : Thread nD τ).loc main_v0)
        = attnArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelValue

end
-- ==== Proof.RefValue.lean ====
/-
  The reference, read at an index, is the specification.

  The reference is six host operations: the projection `x · w` (a product contracting the token width, the batch and
  the position kept), the scores (a product of the projected batch with itself, member by member, contracting the
  projected width), the mask laid along the key axis by two broadcasts, the pointwise product of scores and mask, and
  the product of the masked scores with the projected batch, member by member, contracting the key position. Each is
  read at an index by its stage lemma; the operand indices those lemmas compute are the coordinates the specification
  uses.
-/
import proofs.«144591_j11879879543805_1_alg».proof.Proof.Gen.ReferenceIdeal.Read
import proofs.«144591_j11879879543805_1_alg».proof.Proof.Spec

noncomputable section

open scoped BigOperators

namespace Cert.RefValue

open Cert.ReferenceIdeal Cert.ReferenceIdeal.Gen Cert.ReferenceIdeal.Read
open Idealize.ShloMosaic Idealize.ShloMosaic.ValueIdx Cert.Spec

variable (x0 : (⟨S1024x64x512, .f32⟩ : BufTy).Contents (Elt Ideal)) (x1 : (⟨S1024x64, .f32⟩ : BufTy).Contents (Elt Ideal))
  (x2 : (⟨S512x512, .f32⟩ : BufTy).Contents (Elt Ideal))

/-- The first product at `(b, s, e)` is the projected token. -/
theorem proj_eq (b : Fin 1024) (s : Fin 64) (e : Fin 512) :
    val_main_v0 (F := Ideal) x0 x2 (ix3 b s e) = proj x0 x2 b s e := by
  rw [val_main_v0_apply]
  refine Finset.sum_congr rfl fun k _ => ?_
  have hl : lidx_main_v0 (ix3 b s e) k = ix3 b s k :=
    funext fun a => by match a with | ⟨0, _⟩ => rfl | ⟨1, _⟩ => rfl | ⟨2, _⟩ => rfl
  have hr : ridx_main_v0 (ix3 b s e) k = ix2 k e :=
    funext fun a => by match a with | ⟨0, _⟩ => rfl | ⟨1, _⟩ => rfl
  rw [hl, hr]

/-- The second product at `(b, j, f)` is the score of query `j` against key `f`. -/
theorem score_eq (b : Fin 1024) (j f : Fin 64) :
    val_main_v1 (F := Ideal) x0 x2 (ix3 b j f) = score x0 x2 b j f := by
  rw [val_main_v1_apply]
  refine Finset.sum_congr rfl fun k _ => ?_
  have hl : lidx_main_v1 (ix3 b j f) k = ix3 b j k :=
    funext fun a => by match a with | ⟨0, _⟩ => rfl | ⟨1, _⟩ => rfl | ⟨2, _⟩ => rfl
  have hr : ridx_main_v1 (ix3 b j f) k = ix3 b f k :=
    funext fun a => by match a with | ⟨0, _⟩ => rfl | ⟨1, _⟩ => rfl | ⟨2, _⟩ => rfl
  rw [hl, hr, proj_eq, proj_eq]

/-- The broadcast mask at `(b, j, f)` is the mask at `(b, f)`: it weighs the key position. -/
theorem mask_eq (b : Fin 1024) (j f : Fin 64) :
    val_main_v3 (F := Ideal) x1 (ix3 b j f) = x1 (ix2 b f) := by
  rw [val_main_v3_apply, val_main_v2_apply]
  exact congrArg x1 (funext fun a => by match a with | ⟨0, _⟩ => rfl | ⟨1, _⟩ => rfl)

/-- The reference's result at `(b, j, d)`. -/
theorem out_eq (b : Fin 1024) (j : Fin 64) (d : Fin 512) :
    val_main_v5 (F := Ideal) x0 x1 x2 (ix3 b j d) = attn x0 x1 x2 b j d := by
  rw [val_main_v5_apply]
  refine Finset.sum_congr rfl fun f _ => ?_
  have hl : lidx_main_v5 (ix3 b j d) f = ix3 b j f :=
    funext fun a => by match a with | ⟨0, _⟩ => rfl | ⟨1, _⟩ => rfl | ⟨2, _⟩ => rfl
  have hr : ridx_main_v5 (ix3 b j d) f = ix3 b f d :=
    funext fun a => by match a with | ⟨0, _⟩ => rfl | ⟨1, _⟩ => rfl | ⟨2, _⟩ => rfl
  rw [hl, hr, val_main_v4_apply, score_eq, mask_eq, proj_eq]
  rfl

/-- The reference's result array is the specification's. -/
theorem ref_eq : val_main_v5 (F := Ideal) x0 x1 x2 = attnArr x0 x1 x2 := by
  funext i
  obtain ⟨b, j, d, rfl⟩ : ∃ (b : Fin 1024) (j : Fin 64) (d : Fin 512), i = ix3 b j d := ⟨i 0, i 1, i 2, eq_ix3 i⟩
  exact out_eq x0 x1 x2 b j d

end Cert.RefValue

end
-- ==== Proof.lean ====
/-
  A block of masked, un-normalised self-attention against its plain array formulation.

  Both programs compute, for a batch `x` of 1024 sequences of 64 tokens of width 512, a mask `[1024, 64]` and one
  weight matrix `w` `[512, 512]`,
      q[b, s, e]   = ∑ k, x[b, s, k] · w[k, e]                      (query, key and value are one projection)
      out[b, j, d] = ∑ f, ((∑ e, q[b, j, e] · q[b, f, e]) · mask[b, f]) · q[b, f, d].
  The kernel does it 16 sequences at a time over a grid of 64 points: it flattens the block to 1024 rows for the
  projection, cuts the product back into sequences, and multiplies sequence by sequence; its operands pass through a
  narrower float format, which on the extended reals changes nothing. The reference is three products and a broadcast
  multiplication on whole arrays. Read at an index both are the sums above, literally: the same products in the same
  grouping, so no algebraic law is needed and the inputs' finiteness is never used.

  The parts: `Spec` (the function), `RefValue` (the reference is it), `KernelDots`, `Layouts`, `Payload` (the body's
  stored value is it on a block), `Blocks` (the 64 blocks make the array; the run). The frames of the two kernel
  programs and the reference's run are the generated ones.
-/
import proofs.«144591_j11879879543805_1_alg».proof.Defs
import proofs.«144591_j11879879543805_1_alg».proof.Proof.Gen.Kernel
import proofs.«144591_j11879879543805_1_alg».proof.Proof.Gen.Kernel.Skeleton
import proofs.«144591_j11879879543805_1_alg».proof.Proof.Gen.Kernel.Launch
import proofs.«144591_j11879879543805_1_alg».proof.Proof.Gen.Kernel.Points
import proofs.«144591_j11879879543805_1_alg».proof.Proof.Gen.Kernel.Frame
import proofs.«144591_j11879879543805_1_alg».proof.Proof.Gen.KernelIdeal
import proofs.«144591_j11879879543805_1_alg».proof.Proof.Gen.KernelIdeal.Skeleton
import proofs.«144591_j11879879543805_1_alg».proof.Proof.Gen.KernelIdeal.Launch
import proofs.«144591_j11879879543805_1_alg».proof.Proof.Gen.KernelIdeal.Points
import proofs.«144591_j11879879543805_1_alg».proof.Proof.Gen.KernelIdeal.Frame
import proofs.«144591_j11879879543805_1_alg».proof.Proof.Gen.ReferenceIdeal
import proofs.«144591_j11879879543805_1_alg».proof.Proof.Gen.Pre_finite_inputs
import proofs.«144591_j11879879543805_1_alg».proof.Proof.Gen.KernelIdeal.Value
import proofs.«144591_j11879879543805_1_alg».proof.Proof.Gen.ReferenceIdeal.Run
import proofs.«144591_j11879879543805_1_alg».proof.Proof.Gen.ReferenceIdeal.Read
import proofs.«144591_j11879879543805_1_alg».proof.Proof.Blocks
import proofs.«144591_j11879879543805_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the specification of its arguments (the 64 blocks), the
    reference's at the specification of its own (the stages read at an index), and the arguments agree. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
